-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_6 : Ref sig .tc := ⟨.hbm, 27, rfl⟩
abbrev main_call2_v0 : Ref sig .tc := ⟨.hbm, 28, rfl⟩
abbrev main_call2_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What each control case of the kernel body leaves behind, read back as values.

  The body keeps a running [1024,1024] accumulator in a scratch buffer that survives from one grid point to the next.
  Writing `upd w x acc` for the accumulator update (`acc + x · dequant(w)ᵀ` on the blocks at the point) and `fin acc b`
  for the epilogue (`acc + b`, the bias row repeated down the rows):
    * a point with k = 0 stores the zero block first and reads it back, so it leaves `upd w x 0` in the scratch;
    * a point with 0 < k < 7 leaves `upd w x acc` over what the point before left;
    * a point with k = 7 leaves `upd w x acc` in the scratch and stores `fin (upd w x acc) b` into the output block.
  Each lemma holds at every float instance: it says which store covers which buffer, not what the arithmetic is.
-/
import proofs.«139704_j23691039605071_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A first point (k = 0): the zero block is stored, read back, and updated. -/
theorem scratch_A (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x512 .f32) (x2 : Vec F S1x1024 .f32) :
    sout0_A_0 c i a3 h3 a4 h4 a5 h5 a6 h6 a7 h7 hc0 hc1 x0 x1 x2 = k0_pay2 x1 x0 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz]

/-- A middle point (0 < k < 7): the scratch ends at the update of what it held. -/
theorem scratch_B (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x512 .f32) (x2 : Vec F S1x1024 .f32) (xs0 : Vec F S1024x1024 .f32) :
    sout0_B_0 c i a3 h3 a4 h4 a5 h5 a6 h6 a7 h7 hc0 hc1 x0 x1 x2 xs0 = k0_pay2 x1 x0 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x512) hz,
    View.ld_unit_zero (S := S1024x1024) hz]

/-- A last point (k = 7), the scratch: the same update. -/
theorem scratch_C (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x512 .f32) (x2 : Vec F S1x1024 .f32) (xs0 : Vec F S1024x1024 .f32) :
    sout0_C_0 c i a3 h3 a4 h4 a5 h5 a6 h6 a7 h7 hc0 hc1 x0 x1 x2 xs0 = k0_pay2 x1 x0 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x512) hz,
    View.ld_unit_zero (S := S1024x1024) hz]

/-- A last point (k = 7), the output block: the updated accumulator plus the bias row. -/
theorem out_C (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x512 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x1 x0 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.readCov_unit_zero (S := S1024x1024) _ hz, View.ld_unit_zero (S := S1024x512) hz,
    View.ld_unit_zero (S := S1024x1024) hz, View.ld_unit_zero (S := S1x1024) hz]

end Cert.KernelIdeal.Acc

end
-- ==== Proof.Spec.lean ====
/-
  The specification: a linear layer over ternary-dequantized weights, and the two laws of sums it rests on.

  Every weight `v` is first replaced by `dq v`: +1 above 1/2, -1 below -1/2, 0 where |v| < 0.1 (the binary value the
  literal 0.1 rounds to, the same word on both sides), and (v + 1/2) / 1 in between, the branches tried in that order.
  The result at row `r` and column `n` is the inner product of row `r` of `x` with the dequantized row `n` of the weights,
  plus `bias n`.  The kernel reaches that inner product in eight partial sums over consecutive runs of 512 terms; on the
  extended reals addition is commutative and associative (an `AddCommMonoid`), so regrouping a sum needs no finiteness.
-/
import Idealize.ShloMosaic.PureOps.Ideal.Laws
import Idealize.ShloMosaic.Lib.ValueIdx

noncomputable section

open Idealize.ShloMosaic Idealize.ShloMosaic.ValueIdx
open scoped BigOperators

namespace Cert.TernaryLinear

/-- The ternary dequantization of one weight, over the extended reals. -/
def dq (v : Ideal .f32) : Ideal .f32 :=
  Scalar.select (FloatOps.cmpf .ogt v (Ideal.ofBits .f32 0x3F000000#32)) (Ideal.ofBits .f32 0x3F800000#32)
    (Scalar.select (FloatOps.cmpf .olt v (Ideal.ofBits .f32 0xBF000000#32)) (Ideal.ofBits .f32 0xBF800000#32)
      (Scalar.select (FloatOps.cmpf .olt (FloatOps.absf v) (Ideal.ofBits .f32 0x3DCCCCCD#32)) (Ideal.ofBits .f32 0x00000000#32)
        (Ideal.div (v + Ideal.ofBits .f32 0x3F000000#32) (Ideal.ofBits .f32 0x3F800000#32))))

/-- The product of two [rows, K] blocks along their second axes, the second block dequantized first:
    entry (p, q) is the inner product of row `p` of `a` with the dequantized row `q` of `b`. -/
def rowDot {R C K : Nat} (a : (⟨2, ![R, K]⟩ : Shape).Idx → Ideal .f32) (b : (⟨2, ![C, K]⟩ : Shape).Idx → Ideal .f32)
    (p : Fin R) (q : Fin C) : Ideal .f32 :=
  ∑ k : Fin K, a (ix2 p k) * dq (b (ix2 q k))

/-- THE SPECIFICATION: `x · dq(w)ᵀ + bias`, index by index. -/
def spec (x : (⟨2, ![8192, 4096]⟩ : Shape).Idx → Ideal .f32) (w : (⟨2, ![4096, 4096]⟩ : Shape).Idx → Ideal .f32)
    (bias : (⟨1, ![4096]⟩ : Shape).Idx → Ideal .f32) : (⟨2, ![8192, 4096]⟩ : Shape).Idx → Ideal .f32 :=
  fun i => rowDot x w (i 0) (i 1) + bias (ix1 (i 1))

/-- Term `k` of the inner product of row `r` of `x` with the dequantized row `n` of `w`, as a function of a natural
    (zero past the 4096 columns, where it is never read). -/
def summand {R C : Nat} (x : (⟨2, ![R, 4096]⟩ : Shape).Idx → Ideal .f32) (w : (⟨2, ![C, 4096]⟩ : Shape).Idx → Ideal .f32)
    (r : Fin R) (n : Fin C) (k : ℕ) : Ideal .f32 :=
  if h : k < 4096 then x (ix2 r ⟨k, h⟩) * dq (w (ix2 n ⟨k, h⟩)) else 0

/-- A sum over `n · B` consecutive naturals is the sum over `n` runs of `B`. -/
theorem sum_range_blocks {M : Type*} [AddCommMonoid M] (f : ℕ → M) (B : ℕ) :
    ∀ n : ℕ, ∑ k ∈ Finset.range (n * B), f k = ∑ s ∈ Finset.range n, ∑ j ∈ Finset.range B, f (s * B + j)
  | 0 => by simp
  | n + 1 => by rw [Nat.succ_mul, Finset.sum_range_add, sum_range_blocks f B n, Finset.sum_range_succ]

/-- The 4096 terms of an inner product, taken as eight runs of 512. -/
theorem sum_4096_blocks {M : Type*} [AddCommMonoid M] (f : ℕ → M) :
    ∑ k : Fin 4096, f k.val = ∑ s ∈ Finset.range 8, ∑ j : Fin 512, f (s * 512 + j.val) := by
  rw [Fin.sum_univ_eq_sum_range (fun k => f k) 4096, show (4096 : ℕ) = 8 * 512 from rfl, sum_range_blocks f 512 8]
  exact Finset.sum_congr rfl fun s _ => (Fin.sum_univ_eq_sum_range (fun j => f (s * 512 + j)) 512).symm

/-- The inner product over 4096 columns is the sum of its eight partial sums over runs of 512 columns. -/
theorem rowDot_eq_blocks {R C : Nat} (x : (⟨2, ![R, 4096]⟩ : Shape).Idx → Ideal .f32)
    (w : (⟨2, ![C, 4096]⟩ : Shape).Idx → Ideal .f32) (r : Fin R) (n : Fin C) :
    rowDot x w r n = ∑ s ∈ Finset.range 8, ∑ j : Fin 512, summand x w r n (s * 512 + j.val) := by
  rw [← sum_4096_blocks (summand x w r n)]
  exact Finset.sum_congr rfl fun k _ => by rw [summand, dif_pos k.isLt]

end Cert.TernaryLinear

end
-- ==== Proof.Payload.lean ====
/-
  The body's three stored values, read at an index over the extended reals.

  * the reset stores the zero block;
  * the update stores `acc + x · dq(w)ᵀ`: entry (p, q) is `acc (p, q)` plus the inner product, over the block's 512
    columns, of row `p` of the activation block with the dequantized row `q` of the weight block (the narrowing of both
    operands to sixteen bits before the product is the identity here, and a product into the zero accumulator is the
    bare sum);
  * the epilogue stores `acc (p, q) + bias (0, q)`: the [1, 1024] bias block repeated down the 1024 rows.
-/
import proofs.«139704_j23691039605071_1_alg».proof.Proof.Spec
import proofs.«139704_j23691039605071_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx Cert.TernaryLinear
open scoped BigOperators

namespace Cert.KernelIdeal.Acc

open Cert.KernelIdeal Cert.KernelIdeal.Gen

/-- The block product contracts the second axis of both operands: at output (p, q) and contraction coordinate `k`
    it reads the left operand at (p, k) … -/
theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- … and the right operand at (q, k). -/
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The block product into the zero accumulator, at (p, q): the sum over the 512 columns of `a (p, k) · b (q, k)`. -/
theorem blockProduct_apply (a b : FVec Ideal S1024x512 .bf16) (p q : Fin 1024) :
    matmul dot_S1024x512_S1024x512_S1024x1024_1_1_0_0_n_n none a b (constant S1024x1024 .f32 0x00000000#32) (ix2 p q)
      = ∑ k : Fin 512, a (ix2 p k) * b (ix2 q k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-- The reset's value: zero everywhere. -/
theorem reset_apply (y : S1024x1024.Idx) : k0_pay1 (F := Ideal) y = 0 := by
  unfold k0_pay1
  rw [shapeCast_self]
  exact Ideal.ofBits_zero_f32

/-- The update's value at (p, q): what the accumulator held there, plus the block's share of the inner product. -/
theorem update_apply (w x : Vec Ideal S1024x512 .f32) (acc : Vec Ideal S1024x1024 .f32) (p q : Fin 1024) :
    k0_pay2 (F := Ideal) w x acc (ix2 p q) = acc (ix2 p q) + rowDot x w p q := by
  unfold k0_pay2
  rw [shapeCast_self]
  refine (congrArg (acc (ix2 p q) + ·) (blockProduct_apply _ _ p q)).trans ?_
  rfl

/-- The epilogue's value at (p, q): the accumulator there plus the bias block's entry for column `q`. -/
theorem epilogue_apply (acc : Vec Ideal S1024x1024 .f32) (b : Vec Ideal S1x1024 .f32) (p q : Fin 1024) :
    k0_pay3 (F := Ideal) acc b (ix2 p q) = acc (ix2 p q) + b (ix2 0 q) := by
  unfold k0_pay3
  rw [shapeCast_self]
  refine congrArg (acc (ix2 p q) + ·) ?_
  exact broadcastTo_apply b broadcasts_S1x1024_S1024x1024 (ix2 p q) (ix2 0 q) (fun a => by
    match a with
    | ⟨0, _⟩ => rfl
    | ⟨1, _⟩ => rfl)

end Cert.KernelIdeal.Acc

end
-- ==== Proof.KernelValue.lean ====
/-
  What the kernel leaves in its result array, over the extended reals.

  The grid is 8 × 4 × 8: point `t` is (i, j, k) = (t / 32, t / 8 mod 4, t mod 8), the reduction coordinate `k` fastest.
  At `t` the activation window holds rows 1024·i … of `x` and columns 512·k …; the weight window rows 1024·j … of `w` and
  the same columns; the bias window columns 1024·j … of the bias row; the output window is block (i, j) of the result,
  written back only when k = 7.  The scratch accumulator is reset at k = 0 and each of the eight points of a run adds its
  share of the inner products, so after the run's last point it holds, at (p, q), `0 + Σ_{s<8}` of the partial inner
  products of `x` row 1024·i + p with the dequantized `w` row 1024·j + q over columns 512·s … 512·s + 511.  The epilogue
  adds the bias entry, and the eight partial sums are the one inner product over all 4096 columns: block (i, j) of the
  specification.  The 32 blocks written back tile the result array.
-/
import proofs.«139704_j23691039605071_1_alg».proof.Proof.Pieces
import proofs.«139704_j23691039605071_1_alg».proof.Proof.Payload
import proofs.«139704_j23691039605071_1_alg».proof.Proof.Gen.KernelIdeal.Value
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx Cert.TernaryLinear
open Idealize.ShloMosaic.Pipeline (Dat)
open scoped BigOperators

namespace Cert.KernelIdeal.Acc

open Cert.KernelIdeal Cert.KernelIdeal.Gen Cert.KernelIdeal.Value

variable (m : (ℓ : Loc nD τ sig) → Buf (Elt Ideal) ℓ) (ρ : Dev nD → PrngReg)

/-- The three arrays the region reads, as it finds them, … -/
abbrev xarr (c : Dev nD) : Vec Ideal S8192x4096 .f32 := V m c main_arg0
abbrev warr (c : Dev nD) : Vec Ideal S4096x4096 .f32 := V m c main_arg1
abbrev barr (c : Dev nD) : Vec Ideal S1x4096 .f32 := V m c main_v0
/-- … and their blocks at a grid point. -/
abbrev xblk (c : Dev nD) (t : Fin cfg0.N) : Vec Ideal S1024x512 .f32 := iblk m c 0 t
abbrev wblk (c : Dev nD) (t : Fin cfg0.N) : Vec Ideal S1024x512 .f32 := iblk m c 1 t
abbrev bblk (c : Dev nD) (t : Fin cfg0.N) : Vec Ideal S1x1024 .f32 := iblk m c 2 t

/-- The printed index maps in closed form, decided over the 256 grid points. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The activation block at `t`, entry (p, k): `x` at row 1024·(t / 32) + p, column 512·(t mod 8) + k. -/
theorem xblk_apply (c : Dev nD) (t : Fin cfg0.N) (p : Fin 1024) (k : Fin 512) (i : S8192x4096.Idx)
    (h0 : (i 0).val = t.val / 32 * 1024 + p.val) (h1 : (i 1).val = t.val % 8 * 512 + k.val) :
    xblk m c t (ix2 p k) = xarr m c i := by
  obtain ⟨e0, e1, -⟩ := index_facts t
  show V m c main_arg0 (((cfg0.win 0).blk t).view.emb (ix2 p k)) = V m c main_arg0 i
  refine congrArg _ (funext fun a => Fin.ext ?_)
  match a with
  | ⟨0, _⟩ => show win0_0.index t (0 : Fin 2) * 1024 + 1 * p.val = (i 0).val; omega
  | ⟨1, _⟩ => show win0_0.index t (1 : Fin 2) * 512 + 1 * k.val = (i 1).val; omega

/-- The weight block at `t`, entry (q, k): `w` at row 1024·(t / 8 mod 4) + q, column 512·(t mod 8) + k. -/
theorem wblk_apply (c : Dev nD) (t : Fin cfg0.N) (q : Fin 1024) (k : Fin 512) (i : S4096x4096.Idx)
    (h0 : (i 0).val = t.val / 8 % 4 * 1024 + q.val) (h1 : (i 1).val = t.val % 8 * 512 + k.val) :
    wblk m c t (ix2 q k) = warr m c i := by
  obtain ⟨-, -, e0, e1, -⟩ := index_facts t
  show V m c main_arg1 (((cfg0.win 1).blk t).view.emb (ix2 q k)) = V m c main_arg1 i
  refine congrArg _ (funext fun a => Fin.ext ?_)
  match a with
  | ⟨0, _⟩ => show win0_1.index t (0 : Fin 2) * 1024 + 1 * q.val = (i 0).val; omega
  | ⟨1, _⟩ => show win0_1.index t (1 : Fin 2) * 512 + 1 * k.val = (i 1).val; omega

/-- The bias block at `t`, entry (0, q): the bias row at column 1024·(t / 8 mod 4) + q. -/
theorem bblk_apply (c : Dev nD) (t : Fin cfg0.N) (q : Fin 1024) (i : S1x4096.Idx)
    (h1 : (i 1).val = t.val / 8 % 4 * 1024 + q.val) :
    bblk m c t (ix2 0 q) = barr m c i := by
  obtain ⟨-, -, -, -, e0, e1, -⟩ := index_facts t
  show V m c main_v0 (((cfg0.win 2).blk t).view.emb (ix2 0 q)) = V m c main_v0 i
  refine congrArg _ (funext fun a => Fin.ext ?_)
  have hi0 : (i 0).val = 0 := by have := (i 0).isLt; simp at this; omega
  match a with
  | ⟨0, _⟩ => show win0_2.index t (0 : Fin 2) * 1 + 1 * 0 = (i 0).val; omega
  | ⟨1, _⟩ => show win0_2.index t (1 : Fin 2) * 1024 + 1 * q.val = (i 1).val; omega

/-! ## The accumulator after each point -/

/-- Point `n`'s share of the inner products: entry (p, q) is the inner product of row `p` of the point's activation
    block with the dequantized row `q` of its weight block (zero past the grid, where it is never read). -/
def share (c : Dev nD) (n : ℕ) : S1024x1024.Idx → Ideal .f32 :=
  fun y => if h : n < cfg0.N then rowDot (xblk m c ⟨n, h⟩) (wblk m c ⟨n, h⟩) (y 0) (y 1) else 0

/-- A point with k = 0 leaves `0 +` its share in the scratch, whatever the scratch held. -/
theorem step_first (c : Dev nD) (n : ℕ) (hb : n < cfg0.N) (h0 : n % 8 = 0) (acc : Vec Ideal S1024x1024 .f32)
    (y : S1024x1024.Idx) : scAt0_0 m c n hb acc y = 0 + share m c n y := by
  have hN : n < 256 := lt_of_lt_of_eq hb (show cfg0.N = 256 from N_0)
  have e : scAt0_0 m c n hb acc = k0_pay2 (F := Ideal) (wblk m c ⟨n, hb⟩) (xblk m c ⟨n, hb⟩) (k0_pay1 (F := Ideal)) := by
    unfold scAt0_0
    rw [dif_pos h0, dif_neg (by omega)]
    exact scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (xblk m c ⟨n, hb⟩) (wblk m c ⟨n, hb⟩) (bblk m c ⟨n, hb⟩)
  obtain ⟨p, q, rfl⟩ : ∃ (p q : Fin 1024), y = ix2 p q := ⟨y 0, y 1, eq_ix2 y⟩
  rw [e, update_apply, reset_apply]
  unfold share
  rw [dif_pos hb]

/-- A point with k > 0 adds its share to what the scratch held. -/
theorem step_later (c : Dev nD) (n : ℕ) (hb : n < cfg0.N) (h0 : ¬n % 8 = 0) (acc : Vec Ideal S1024x1024 .f32)
    (y : S1024x1024.Idx) : scAt0_0 m c n hb acc y = acc y + share m c n y := by
  have e : scAt0_0 m c n hb acc = k0_pay2 (F := Ideal) (wblk m c ⟨n, hb⟩) (xblk m c ⟨n, hb⟩) acc := by
    unfold scAt0_0
    rw [dif_neg h0]
    by_cases h1 : n % 8 = 7
    · rw [dif_pos h1]
      exact scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (xblk m c ⟨n, hb⟩) (wblk m c ⟨n, hb⟩) (bblk m c ⟨n, hb⟩) acc
    · rw [dif_neg h1]
      exact scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (xblk m c ⟨n, hb⟩) (wblk m c ⟨n, hb⟩) (bblk m c ⟨n, hb⟩) acc
  obtain ⟨p, q, rfl⟩ : ∃ (p q : Fin 1024), y = ix2 p q := ⟨y 0, y 1, eq_ix2 y⟩
  rw [e, update_apply]
  unfold share
  rw [dif_pos hb]

/-- After the last point of a run (k = 7) the scratch holds `0 +` the eight shares of the run's points. -/
theorem acc_last (c : Dev nD) (t : Fin cfg0.N) (h1 : t.val % 8 = 7) (y : S1024x1024.Idx) :
    (outsAt0 m c t.val t.isLt).2 y = 0 + ∑ s ∈ Finset.range 8, share m c (8 * (t.val / 8) + s) y := by
  have hN : t.val < 256 := lt_of_lt_of_eq t.isLt (show cfg0.N = 256 from N_0)
  rw [soutsAt0_0_eq m c t]
  refine (Pipeline.accAt_add_apply (β := Ideal .f32) _ _ (fun _ => 0) (share m c) (8 * (t.val / 8)) 7 ?ha ?hg (t.val % 8) (by omega) _ y).trans ?fin
  case fin => rw [h1]
  case ha => intro h i; exact step_first m c _ h (by omega) _ i
  case hg => intro n h acc i hlt hle; exact step_later m c n h (by omega) acc i

/-- At such a point the output block is the scratch's final contents plus the bias block. -/
theorem out_last (c : Dev nD) (t : Fin cfg0.N) (h1 : t.val % 8 = 7) :
    (outsAt0 m c t.val t.isLt).1 = k0_pay3 (F := Ideal) (outsAt0 m c t.val t.isLt).2 (bblk m c t) := by
  have h0 : ¬t.val % 8 = 0 := by omega
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) scM0_0 (Memref.isWhole_whole _) _ _ (xblk m c t) (wblk m c t) (bblk m c t) (outsAt0 m c (t.val - 1) (Nat.lt_of_le_of_lt (Nat.sub_le _ _) t.isLt)).2,
    scratch_C (F := Ideal) c (grid0.coords t) (ms0_0 t) (hs0_0 t) (ms0_1 t) (hs0_1 t) (ms0_2 t) (hs0_2 t) (ms0_3 t) (hs0_3 t) scM0_0 (Memref.isWhole_whole _) _ _ (xblk m c t) (wblk m c t) (bblk m c t) (outsAt0 m c (t.val - 1) (Nat.lt_of_le_of_lt (Nat.sub_le _ _) t.isLt)).2]

/-! ## The result array -/

/-- The bias row the region finds is the bias argument with a leading unit axis: entry (0, n) is `bias n`. -/
theorem barr_apply (c : Dev nD) (n : Fin 4096) :
    barr m c (ix2 0 n) = m ((c : Thread nD τ).loc main_arg2) (ix1 n) := by
  have e : (V m c main_v0 : S1x4096.Idx → Ideal .f32)
      = shapeCast S1x4096 (m ((c : Thread nD τ).loc main_arg2)) shapeCasts_S4096_S1x4096 := by
    dsimp only [Gen.V, Gen.hostOps0]; after_results; rfl
  show V m c main_v0 (ix2 0 n) = _
  rw [e]
  refine (shapeCast_addUnit_apply ![4096] _ shapeCasts_S4096_S1x4096 (ix2 0 n)).trans (congrArg _ ?_)
  funext a
  match a with
  | ⟨0, _⟩ => rfl

/-- What the result array ends holding: the specification, of the arrays as the region finds them. -/
abbrev result (c : Dev nD) : Vec Ideal S8192x4096 .f32 :=
  spec (xarr m c) (warr m c) (fun n => barr m c (ix2 0 (n 0)))

/-- Entry (p, q) of the block a point with k = 7 stores is the specification at the array index `i` under it:
    row 1024·(t / 32) + p, column 1024·(t / 8 mod 4) + q. -/
theorem block_entry (c : Dev nD) (t : Fin cfg0.N) (h1 : t.val % 8 = 7) (p q : Fin 1024) (i : S8192x4096.Idx)
    (hr : (i 0).val = t.val / 32 * 1024 + p.val) (hc : (i 1).val = t.val / 8 % 4 * 1024 + q.val) :
    k0_pay3 (F := Ideal) (outsAt0 m c t.val t.isLt).2 (bblk m c t) (ix2 p q) = result m c i := by
  have hN : t.val < 256 := lt_of_lt_of_eq t.isLt (show cfg0.N = 256 from N_0)
  obtain ⟨r, n, rfl⟩ : ∃ (r : Fin 8192) (n : Fin 4096), i = ix2 r n := ⟨i 0, i 1, eq_ix2 i⟩
  have hr' : r.val = t.val / 32 * 1024 + p.val := hr
  have hc' : n.val = t.val / 8 % 4 * 1024 + q.val := hc
  rw [epilogue_apply, acc_last m c t h1]
  show _ = rowDot (xarr m c) (warr m c) r n + barr m c (ix2 0 n)
  rw [rowDot_eq_blocks, zero_add, bblk_apply m c t q (ix2 0 n) hc']
  refine congrArg (· + _) (Finset.sum_congr rfl fun s hs => ?_)
  have hs8 : s < 8 := Finset.mem_range.mp hs
  have hn : 8 * (t.val / 8) + s < cfg0.N := lt_of_lt_of_eq (by omega : 8 * (t.val / 8) + s < 256) (show cfg0.N = 256 from N_0).symm
  unfold share
  rw [dif_pos hn]
  unfold rowDot
  refine Finset.sum_congr rfl fun k _ => ?_
  have hk : k.val < 512 := k.isLt
  have hcol : s * 512 + k.val < 4096 := by omega
  rw [summand, dif_pos hcol]
  rw [xblk_apply m c ⟨8 * (t.val / 8) + s, hn⟩ p k (ix2 r ⟨s * 512 + k.val, hcol⟩)
      (by show r.val = (8 * (t.val / 8) + s) / 32 * 1024 + p.val; omega)
      (by show s * 512 + k.val = (8 * (t.val / 8) + s) % 8 * 512 + k.val; omega),
    wblk_apply m c ⟨8 * (t.val / 8) + s, hn⟩ q k (ix2 n ⟨s * 512 + k.val, hcol⟩)
      (by show n.val = (8 * (t.val / 8) + s) / 8 % 4 * 1024 + q.val; omega)
      (by show s * 512 + k.val = (8 * (t.val / 8) + s) % 8 * 512 + k.val; omega)]

/-- So what a point that writes back writes is its block of the specification. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  obtain ⟨-, -, -, -, -, -, e0, e1⟩ := index_facts t
  rw [flushed3, out_last m c t h1]
  refine funext fun (y : S1024x1024.Idx) => ?_
  obtain ⟨p, q, rfl⟩ : ∃ (p q : Fin 1024), y = ix2 p q := ⟨y 0, y 1, eq_ix2 y⟩
  exact block_entry m c t h1 p q (((cfg0.win 3).blk t).view.emb (ix2 p q))
    (by show win0_3.index t (0 : Fin 2) * 1024 + 1 * p.val = _; omega)
    (by show win0_3.index t (1 : Fin 2) * 1024 + 1 * q.val = _; omega)

/-- Every entry of the result array lies under the block of a point that writes back: the one with
    i = row / 1024, j = column / 1024, k = 7. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have ht : (i 0).val / 1024 * 32 + (i 1).val / 1024 * 8 + 7 < cfg0.N := by rw [show cfg0.N = 256 from N_0]; omega
  obtain ⟨-, -, -, -, -, -, e0, e1⟩ := index_facts ⟨_, ht⟩
  refine ⟨⟨_, ht⟩, (flush0_3 _).mpr (by show ((i 0).val / 1024 * 32 + (i 1).val / 1024 * 8 + 7) % 8 = 7; omega), ?_⟩
  show i ∈ ((View.whole main_v1).slice (win0_3.rect ⟨_, ht⟩)).set
  rw [View.set_slice_whole, Rect.mem_set_unit]
  intro a
  match a with
  | ⟨0, _⟩ =>
    show win0_3.index ⟨_, ht⟩ (0 : Fin 2) * 1024 ≤ (i 0).val ∧ (i 0).val < win0_3.index ⟨_, ht⟩ (0 : Fin 2) * 1024 + 1024
    rw [e0]; dsimp only; omega
  | ⟨1, _⟩ =>
    show win0_3.index ⟨_, ht⟩ (1 : Fin 2) * 1024 ≤ (i 1).val ∧ (i 1).val < win0_3.index ⟨_, ht⟩ (1 : Fin 2) * 1024 + 1024
    rw [e1]; dsimp only; omega

/-- The result array after the run is the specification of the arrays the region finds … -/
theorem final (c : Dev nD) : (dats m 0 c).arrAt 3 cfg0.N = result m c :=
  (dats m 0 c).arrAt_eq_of_cover 3 (result m c) (flushed_eq m c) covered

/-- … which are the launch contents of the three arguments. -/
theorem result_eq (c : Dev nD) :
    result m c = spec (m ((c : Thread nD τ).loc main_arg0)) (m ((c : Thread nD τ).loc main_arg1)) (m ((c : Thread nD τ).loc main_arg2)) := by
  show spec (V m c main_arg0) (V m c main_arg1) (fun n => barr m c (ix2 0 (n 0))) = _
  rw [V_main_arg0, V_main_arg1]
  refine congrArg _ (funext fun n => ?_)
  obtain ⟨j, rfl⟩ : ∃ j : Fin 4096, n = ix1 j := ⟨n 0, eq_ix1 n⟩
  exact barr_apply m c j

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1)
        = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (result_eq m c)), (h c).2⟩) (run_blocks m ρ)

end Cert.KernelIdeal.Acc

end
-- ==== Proof.RefValue.lean ====
/-
  The reference computes the specification.

  The reference dequantizes the whole weight array with the same comparisons, the same literals and the same branch
  order as the specification's `dq` (its three nested `where`s are selects on broadcast scalars), transposes the result,
  contracts `x`'s second axis with the transposed array's first — entry (r, n) is the sum over `k` of
  `x (r, k) · dq (w (n, k))` — and adds the bias broadcast down the rows.  Read index by index that is `spec`, term for term.
-/
import proofs.«139704_j23691039605071_1_alg».proof.Proof.Spec
import proofs.«139704_j23691039605071_1_alg».proof.Proof.Gen.ReferenceIdeal.Read

noncomputable section

open Idealize.ShloMosaic Idealize.ShloMosaic.ValueIdx Cert.TernaryLinear
open scoped BigOperators

namespace Cert.ReferenceIdeal.RefValue

open Cert.ReferenceIdeal Cert.ReferenceIdeal.Gen Cert.ReferenceIdeal.Read

/-- The dequantized weight array at (n, k) is `dq` of the weight there. -/
theorem dequant_apply (w : (⟨S4096x4096, .f32⟩ : BufTy).Contents (Elt Ideal)) (i : S4096x4096.Idx) :
    val_main_v13 (F := Ideal) w i = dq (w i) := by
  simp only [val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_call2_v1_apply, val_main_call2_v0_apply,
    val_main_call1_v1_apply, val_main_call1_v0_apply, val_main_call0_v1_apply, val_main_call0_v0_apply,
    val_main_cst_apply, val_main_cst_0_apply, val_main_cst_1_apply, val_main_cst_2_apply, val_main_cst_3_apply,
    val_main_cst_4_apply, val_main_cst_5_apply, val_main_cst_6_apply]
  rfl

/-- The reference's result is the specification of its three arguments. -/
theorem reference_eq (x : (⟨S8192x4096, .f32⟩ : BufTy).Contents (Elt Ideal)) (w : (⟨S4096x4096, .f32⟩ : BufTy).Contents (Elt Ideal))
    (bias : (⟨S4096, .f32⟩ : BufTy).Contents (Elt Ideal)) :
    val_main_v18 (F := Ideal) x w bias = spec x w bias := by
  funext i
  obtain ⟨r, n, rfl⟩ : ∃ (r : Fin 8192) (n : Fin 4096), i = ix2 r n := ⟨i 0, i 1, eq_ix2 i⟩
  rw [val_main_v18_apply, val_main_v15_apply, val_main_v17_apply, val_main_v16_apply]
  have eb : idx_main_v16 (idx_main_v17 (ix2 r n)) = ix1 n := funext fun a => by
    match a with
    | ⟨0, _⟩ => rfl
  rw [eb]
  show _ = rowDot x w r n + bias (ix1 n)
  refine congrArg (· + _) (Finset.sum_congr rfl fun k _ => ?_)
  have el : lidx_main_v15 (ix2 r n) k = ix2 r k := funext fun a => Fin.ext (by
    match a with
    | ⟨0, _⟩ => rfl
    | ⟨1, _⟩ => rfl)
  have er : idx_main_v14 (ridx_main_v15 (ix2 r n) k) = ix2 n k := funext fun a => Fin.ext (by
    match a with
    | ⟨0, _⟩ => rfl
    | ⟨1, _⟩ => rfl)
  rw [el, val_main_v14_apply, er, dequant_apply]

end Cert.ReferenceIdeal.RefValue

end
-- ==== Proof.lean ====
/-
  A linear layer over ternary-dequantized weights: `out = x · dq(w)ᵀ + bias`, with x : [8192, 4096], w : [4096, 4096],
  bias : [4096], and `dq` the elementwise map to +1 / -1 / 0 / (v + 1/2) / 1 by thresholds 1/2 and 0.1.

  The kernel tiles the product over an 8 × 4 × 8 grid of [1024, 512] activation and weight blocks, dequantizes each weight
  block in place, and accumulates the eight partial products of a run in a scratch block that is reset at the run's first
  point and written out, with the bias added, at its last.  The reference dequantizes the whole weight array, contracts
  all 4096 columns at once and adds the bias.  Over the extended reals both are the one function `spec` (Proof/Spec.lean):
  the narrowing of the operands before the block product is the identity, a block product into zero is a bare sum, and
  the eight partial sums of 512 terms regroup into the sum of 4096 terms because addition there is commutative and
  associative — no finiteness of the inputs is used.

    Proof/Spec.lean         `dq`, `spec`, and the regrouping of a 4096-term sum into eight runs of 512
    Proof/Pieces.lean       what each control case of the body leaves in the scratch and the output block
    Proof/Payload.lean      the three stored values read at an index
    Proof/KernelValue.lean  the scratch after a run is the sum of the run's shares; the result array is `spec`
    Proof/RefValue.lean     the reference's result is `spec`

  The three frames are the programs' runs with the results dropped; the idealization rewrote nothing.
-/
import proofs.«139704_j23691039605071_1_alg».proof.Defs
import proofs.«139704_j23691039605071_1_alg».proof.Proof.Gen.Kernel
import proofs.«139704_j23691039605071_1_alg».proof.Proof.Gen.Kernel.Skeleton
import proofs.«139704_j23691039605071_1_alg».proof.Proof.Gen.Kernel.Launch
import proofs.«139704_j23691039605071_1_alg».proof.Proof.Gen.Kernel.Points
import proofs.«139704_j23691039605071_1_alg».proof.Proof.Gen.Kernel.Frame
import proofs.«139704_j23691039605071_1_alg».proof.Proof.Gen.KernelIdeal
import proofs.«139704_j23691039605071_1_alg».proof.Proof.Gen.KernelIdeal.Skeleton
import proofs.«139704_j23691039605071_1_alg».proof.Proof.Gen.KernelIdeal.Launch
import proofs.«139704_j23691039605071_1_alg».proof.Proof.Gen.KernelIdeal.Points
import proofs.«139704_j23691039605071_1_alg».proof.Proof.Gen.KernelIdeal.Frame
import proofs.«139704_j23691039605071_1_alg».proof.Proof.Gen.ReferenceIdeal
import proofs.«139704_j23691039605071_1_alg».proof.Proof.Gen.Pre_finite_inputs
import proofs.«139704_j23691039605071_1_alg».proof.Proof.Gen.KernelIdeal.Value
import proofs.«139704_j23691039605071_1_alg».proof.Proof.Gen.ReferenceIdeal.Run
import proofs.«139704_j23691039605071_1_alg».proof.Proof.Gen.ReferenceIdeal.Read
import proofs.«139704_j23691039605071_1_alg».proof.Proof.KernelValue
import proofs.«139704_j23691039605071_1_alg».proof.Proof.RefValue
import Idealize.ShloMosaic.Adequacy
import Idealize.ShloMosaic.Init

noncomputable section

namespace Cert.Proof

open Idealize.ShloMosaic Idealize.ShloMosaic.TcCoe Idealize.SL.Sem Cert.TernaryLinear

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's both end at `spec` of arguments that agree. -/
theorem algebraic : Cert.algebraic_KernelIdeal_ReferenceIdeal := by
  intro m ρ m' ρ' _ hagree
  refine ⟨fun c => spec (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2)), Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.reference_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
